-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) (main_arg6 : FVec F S256x256 .f32) (main_arg7 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S5000x256 : Shape := ⟨2, ![5000, 256]⟩

abbrev nBuf : Space → Nat
  | .hbm => 29
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S256x256, .f32⟩
  | .hbm, ⟨25, _⟩ => ⟨S256x256, .f32⟩
  | .hbm, ⟨26, _⟩ => ⟨S1x256, .f32⟩
  | .hbm, ⟨27, _⟩ => ⟨S1x256, .f32⟩
  | .hbm, ⟨28, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S50000x256, .f32⟩
  | .hbm, ⟨25, _⟩ => ⟨S256x256, .f32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .i1⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S256x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .i1⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Cell.lean ====
/-
  The function both programs compute, one output entry at a time.

  For a node's feature row `x`, its aggregated neighbour row `s` (both of length 256), two weight matrices
  `w1`, `w2` indexed (output feature, input feature) and two bias vectors, the output at feature `q` is

      leaky (∑ k, (x k * s k) * w2 q k + b2 q)  +  leaky (∑ k, (x k + s k) * w1 q k + b1 q)

  where `leaky y` is `y` when `y ≥ 0` and `c * y` otherwise, `c` the single-precision constant nearest 0.01.
  The comparison, the selection and the constant are kept exactly as both programs spell them, so that nothing
  about them is ever evaluated: the two sides use the same words and only the sums have to be matched.

  An entry depends on ONE row of the two node arrays, on one row of each weight matrix and on one entry of each
  bias; so cutting the node arrays into blocks of rows does not change it.
-/
import Idealize.ShloMosaic.PureOps.Ideal
import Idealize.ShloMosaic.PureOps.Ideal.Laws
import Idealize.ShloMosaic.Lib.ValueIdx
import proofs.«136684_j62715112456964_1_alg».proof.Proof.LibPlainDot

noncomputable section

namespace BiAgg

open Idealize.ShloMosaic Idealize.ShloMosaic.ValueIdx

/-- The leaky rectifier at one extended real: the value itself where it is at least zero, the small constant
    times it elsewhere. -/
def leaky (y : EReal) : EReal :=
  Scalar.select (FloatOps.cmpf (F := Ideal) (φ := .f32) .oge y (FloatOps.ofBits (F := Ideal) .f32 0x00000000#32)) y
    (FloatOps.ofBits (F := Ideal) .f32 0x3C23D70A#32 * y)

/-- One output entry from one row of each node array, the weights and the biases. -/
def cell (x s : Fin 256 → EReal) (w1 w2 : Fin 256 → Fin 256 → EReal) (b1 b2 : Fin 256 → EReal) (q : Fin 256) : EReal :=
  leaky ((∑ k : Fin 256, (x k * s k) * w2 q k) + b2 q) + leaky ((∑ k : Fin 256, (x k + s k) * w1 q k) + b1 q)

/-- `cell` only looks at its arguments' values. -/
theorem cell_congr {x x' s s' : Fin 256 → EReal} {w1 w1' w2 w2' : Fin 256 → Fin 256 → EReal} {b1 b1' b2 b2' : Fin 256 → EReal}
    (hx : ∀ k, x k = x' k) (hs : ∀ k, s k = s' k) (hw1 : ∀ q k, w1 q k = w1' q k) (hw2 : ∀ q k, w2 q k = w2' q k)
    (hb1 : ∀ q, b1 q = b1' q) (hb2 : ∀ q, b2 q = b2' q) (q : Fin 256) :
    cell x s w1 w2 b1 b2 q = cell x' s' w1' w2' b1' b2' q := by
  rw [funext hx, funext hs, (funext fun a => funext (hw1 a) : w1 = w1'), (funext fun a => funext (hw2 a) : w2 = w2'),
    funext hb1, funext hb2]

/-- The whole result: entry `(p, q)` is `cell` of row `p` of the node features and of the aggregated
    neighbours, with the weights read as (output feature, input feature). -/
def result (X S : (⟨2, ![50000, 256]⟩ : Shape).Idx → EReal) (W1 W2 : (⟨2, ![256, 256]⟩ : Shape).Idx → EReal)
    (B1 B2 : (⟨1, ![256]⟩ : Shape).Idx → EReal) : (⟨2, ![50000, 256]⟩ : Shape).Idx → EReal :=
  fun i => cell (fun k => X (ix2 (i 0) k)) (fun k => S (ix2 (i 0) k)) (fun q k => W1 (ix2 q k)) (fun q k => W2 (ix2 q k))
    (fun q => B1 (ix1 q)) (fun q => B2 (ix1 q)) (i 1)

/-- Over whole vectors of any shape: two pre-activations `M2 + B2` and `M1 + B1`, each rectified against the
    zero splat with the small-constant splat, then added, read at an index, is the sum of the two rectified
    entries. Every operation acts entry by entry. -/
theorem rectified_sum_apply {S : Shape} (M1 M2 B1 B2 : FVec Ideal S .f32) (i : S.Idx) :
    addf
      (select (cmpf .oge (addf M2 B2) (broadcast S (Scalar.ofBits (F := Ideal) .f32 0x00000000#32))) (addf M2 B2)
        (mulf (broadcast S (Scalar.ofBits (F := Ideal) .f32 0x3C23D70A#32)) (addf M2 B2)))
      (select (cmpf .oge (addf M1 B1) (broadcast S (Scalar.ofBits (F := Ideal) .f32 0x00000000#32))) (addf M1 B1)
        (mulf (broadcast S (Scalar.ofBits (F := Ideal) .f32 0x3C23D70A#32)) (addf M1 B1))) i
      = leaky (M2 i + B2 i) + leaky (M1 i + B1 i) := rfl

/-- A matrix product into the zero splat, rows times columns with no batch axis, read at `(p, q)`, is the plain
    sum over the contracted axis. -/
theorem matmul_zero_apply {R K C : Nat} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![R, K]⟩ φ₁) (r : FVec Ideal ⟨2, ![K, C]⟩ φ₂) (p : Fin R) (q : Fin C) :
    matmul d prec l r (constant ⟨2, ![R, C]⟩ .f32 0x00000000#32) (ix2 p q) = ∑ k : Fin K, l (ix2 p k) * r (ix2 k q) :=
  (Ideal.matmul_constant_zero_apply d prec l r (ix2 p q)).trans (PlainDot.sum_eq d hlb hln hlc hrb hrn hrc l r p q)

end BiAgg

end
-- ==== Proof.KernelCell.lean ====
/-
  What the kernel body stores, one entry at a time.

  The body loads a block of 5000 node rows `v0`, the same rows of the aggregated neighbours `v1`, the two weight
  matrices already transposed (`v5`, `v8`: input feature by output feature) and the two biases as one-row matrices
  (`v13`, `v19`), and stores one value: the two rectified pre-activations added. Read over the extended reals the
  narrowing of the matrix products' operands to sixteen bits changes nothing, a matrix product into zero is the plain
  sum over the contracted axis, and the one-row bias is repeated down the rows; so the stored entry `(p, q)` is `cell`
  of row `p` of the two node blocks, with weight `(q, k)` read at the transposed position `(k, q)`.
-/
import proofs.«136684_j62715112456964_1_alg».proof.Proof.Gen.KernelIdeal.Skeleton
import proofs.«136684_j62715112456964_1_alg».proof.Proof.Cell
import Idealize.ShloMosaic.Lib.Pipeline.Value
import Idealize.ShloMosaic.Lib.ValueLayout

noncomputable section

namespace Cert.KernelIdeal.Bridge

open Cert.KernelIdeal Cert.KernelIdeal.Gen Idealize.ShloMosaic Idealize.ShloMosaic.ValueIdx BiAgg

/-- The sum-branch product at `(p, q)`: the sum over `k` of (node + neighbours) at `(p, k)` times the transposed
    weight at `(k, q)`. -/
theorem sum_product_apply (v0 v1 : FVec Ideal S5000x256 .f32) (v5 : FVec Ideal S256x256 .f32) (p : Fin 5000) (q : Fin 256) :
    (matmul dot_S5000x256_S256x256_S5000x256_1_0_0_1_n_n none (truncf .bf16 (addf v0 (shapeCast S5000x256 v1 shapeCasts_S5000x256_S5000x256)) bitsLt_bf16_f32) (truncf .bf16 (shapeCast S256x256 v5 shapeCasts_S256x256_S256x256) bitsLt_bf16_f32) (constant S5000x256 .f32 0x00000000#32)) (ix2 p q) = ∑ k : Fin 256, (v0 (ix2 p k) + v1 (ix2 p k)) * v5 (ix2 k q) := by
  refine (matmul_zero_apply dot_S5000x256_S256x256_S5000x256_1_0_0_1_n_n rfl rfl rfl rfl rfl rfl none _ _ p q).trans ?_
  rw [shapeCast_self, shapeCast_self]
  rfl

/-- The product-branch product at `(p, q)`: the same with (node × neighbours). -/
theorem bi_product_apply (v0 v1 : FVec Ideal S5000x256 .f32) (v8 : FVec Ideal S256x256 .f32) (p : Fin 5000) (q : Fin 256) :
    (matmul dot_S5000x256_S256x256_S5000x256_1_0_0_1_n_n none (truncf .bf16 (mulf v0 (shapeCast S5000x256 v1 shapeCasts_S5000x256_S5000x256)) bitsLt_bf16_f32) (truncf .bf16 (shapeCast S256x256 v8 shapeCasts_S256x256_S256x256) bitsLt_bf16_f32) (constant S5000x256 .f32 0x00000000#32)) (ix2 p q) = ∑ k : Fin 256, (v0 (ix2 p k) * v1 (ix2 p k)) * v8 (ix2 k q) := by
  refine (matmul_zero_apply dot_S5000x256_S256x256_S5000x256_1_0_0_1_n_n rfl rfl rfl rfl rfl rfl none _ _ p q).trans ?_
  rw [shapeCast_self, shapeCast_self]
  rfl

/-- A one-row bias repeated down the block, at `(p, q)`, is the row's entry `q`. -/
theorem bias_rows_apply (v : FVec Ideal S1x256 .f32) (p : Fin 5000) (q : Fin 256) :
    (broadcastTo S5000x256 (shapeCast S1x256 v shapeCasts_S1x256_S1x256) broadcasts_S1x256_S5000x256) (ix2 p q) = v (ix2 (0 : Fin 1) q) := by
  refine (broadcastTo_1b_ab_apply _ broadcasts_S1x256_S5000x256 p q).trans ?_
  rw [shapeCast_self]

/-- THE STORED ENTRY. -/
theorem payload_apply (v0 v1 : FVec Ideal S5000x256 .f32) (v5 v8 : FVec Ideal S256x256 .f32) (v13 v19 : FVec Ideal S1x256 .f32)
    (p : Fin 5000) (q : Fin 256) :
    k0_pay1 (F := Ideal) v0 v1 v5 v8 v13 v19 (ix2 p q)
      = cell (fun k => v0 (ix2 p k)) (fun k => v1 (ix2 p k)) (fun q k => v5 (ix2 k q)) (fun q k => v8 (ix2 k q))
          (fun q => v13 (ix2 (0 : Fin 1) q)) (fun q => v19 (ix2 (0 : Fin 1) q)) q := by
  refine (rectified_sum_apply (matmul dot_S5000x256_S256x256_S5000x256_1_0_0_1_n_n none (truncf .bf16 (addf v0 (shapeCast S5000x256 v1 shapeCasts_S5000x256_S5000x256)) bitsLt_bf16_f32) (truncf .bf16 (shapeCast S256x256 v5 shapeCasts_S256x256_S256x256) bitsLt_bf16_f32) (constant S5000x256 .f32 0x00000000#32)) (matmul dot_S5000x256_S256x256_S5000x256_1_0_0_1_n_n none (truncf .bf16 (mulf v0 (shapeCast S5000x256 v1 shapeCasts_S5000x256_S5000x256)) bitsLt_bf16_f32) (truncf .bf16 (shapeCast S256x256 v8 shapeCasts_S256x256_S256x256) bitsLt_bf16_f32) (constant S5000x256 .f32 0x00000000#32)) (broadcastTo S5000x256 (shapeCast S1x256 v13 shapeCasts_S1x256_S1x256) broadcasts_S1x256_S5000x256) (broadcastTo S5000x256 (shapeCast S1x256 v19 shapeCasts_S1x256_S1x256) broadcasts_S1x256_S5000x256) (ix2 p q)).trans ?_
  rw [sum_product_apply, bi_product_apply, bias_rows_apply, bias_rows_apply]
  rfl

end Cert.KernelIdeal.Bridge

end
-- ==== Proof.KernelEntry.lean ====
/-
  The arrays the kernel's region finds when it is entered.

  Before the region the program forms, from the launch arrays: the aggregated neighbours (the edge weights times the
  gathered node rows, summed into the rows the edges point to) — by the very operations the reference applies, so it is
  the reference's own function of the same four arrays, carried unopened; the two weight matrices transposed, so that
  entry `(k, q)` is the weight `(q, k)`; and the two biases as one-row matrices, entry `(0, q)` the bias `q`.
-/
import proofs.«136684_j62715112456964_1_alg».proof.Proof.Gen.KernelIdeal.Frame
import proofs.«136684_j62715112456964_1_alg».proof.Proof.Gen.ReferenceIdeal.Read
import Idealize.ShloMosaic.Lib.StableHlo.Run
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated neighbours at region entry are the reference's aggregation of the launch arrays. -/
theorem entry_side (c : Dev nD) :
    (V m c main_v12 : S50000x256.Idx → EReal)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results
  rfl

/-- The first weight matrix at region entry, transposed: entry `(k, q)` is the weight `(q, k)`. -/
theorem entry_w1T (c : Dev nD) (k q : Fin 256) :
    (V m c main_v13 : S256x256.Idx → EReal) (ix2 k q) = (m ((c : Thread nD τ).loc main_arg4)) (ix2 q k) := by
  have e : (V m c main_v13 : S256x256.Idx → EReal)
      = transpose S256x256 [1, 0] (m ((c : Thread nD τ).loc main_arg4)) transposes_S256x256_S256x256_1_0 := by
    dsimp only [Gen.V, Gen.hostOps0]
    after_results
  rw [e]
  exact transpose_ix2_apply _ transposes_S256x256_S256x256_1_0 k q

/-- The second weight matrix likewise. -/
theorem entry_w2T (c : Dev nD) (k q : Fin 256) :
    (V m c main_v14 : S256x256.Idx → EReal) (ix2 k q) = (m ((c : Thread nD τ).loc main_arg6)) (ix2 q k) := by
  have e : (V m c main_v14 : S256x256.Idx → EReal)
      = transpose S256x256 [1, 0] (m ((c : Thread nD τ).loc main_arg6)) transposes_S256x256_S256x256_1_0 := by
    dsimp only [Gen.V, Gen.hostOps0]
    after_results
  rw [e]
  exact transpose_ix2_apply _ transposes_S256x256_S256x256_1_0 k q

/-- The first bias at region entry, as a one-row matrix: entry `(0, q)` is the bias `q`. -/
theorem entry_b1 (c : Dev nD) (q : Fin 256) :
    (V m c main_v15 : S1x256.Idx → EReal) (ix2 (0 : Fin 1) q) = (m ((c : Thread nD τ).loc main_arg5)) (ix1 q) := by
  have e : (V m c main_v15 : S1x256.Idx → EReal)
      = shapeCast S1x256 (m ((c : Thread nD τ).loc main_arg5)) shapeCasts_S256_S1x256 := by
    dsimp only [Gen.V, Gen.hostOps0]
    after_results
    rfl
  rw [e]
  exact shapeCast_a_1a_apply _ shapeCasts_S256_S1x256 (0 : Fin 1) q

/-- The second bias likewise. -/
theorem entry_b2 (c : Dev nD) (q : Fin 256) :
    (V m c main_v16 : S1x256.Idx → EReal) (ix2 (0 : Fin 1) q) = (m ((c : Thread nD τ).loc main_arg7)) (ix1 q) := by
  have e : (V m c main_v16 : S1x256.Idx → EReal)
      = shapeCast S1x256 (m ((c : Thread nD τ).loc main_arg7)) shapeCasts_S256_S1x256 := by
    dsimp only [Gen.V, Gen.hostOps0]
    after_results
    rfl
  rw [e]
  exact shapeCast_a_1a_apply _ shapeCasts_S256_S1x256 (0 : Fin 1) q

end Cert.KernelIdeal.Bridge

end
-- ==== Proof.KernelBlocks.lean ====
/-
  What each input window hands the kernel body at a grid point.

  The grid has ten points; point `t` works on node rows `5000 t … 5000 t + 4999`. The two node windows (node features,
  aggregated neighbours) move down the rows with the point: row `p` of their block at `t` is row `5000 t + p` of the
  array, the feature coordinate untouched. The two transposed weight matrices and the two one-row biases are handed
  whole at every point: their block index is zero.
-/
import proofs.«136684_j62715112456964_1_alg».proof.Proof.Gen.KernelIdeal.Frame
import proofs.«136684_j62715112456964_1_alg».proof.Proof.KernelEntry
import proofs.«136684_j62715112456964_1_alg».proof.Proof.Cell

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx BiAgg
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the ten points: the two node windows and the result window move down the rows with the
    point; the weight and bias windows stay at block zero. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## What each input window hands the body at point `t` -/

/-- Row `p` of the node-feature block at point `t` is row `5000 t + p` of the node features. -/
theorem read_nodes (c : Dev nD) (t : Fin cfg0.N) (p : Fin 5000) (k : Fin 256) (r : Fin 50000) (hr : r.val = t.val * 5000 + p.val) :
    iblk m c 0 t (ix2 p k) = (m ((c : Thread nD τ).loc main_arg0)) (ix2 r k) := by
  obtain ⟨e0, e1, -⟩ := index_maps t
  refine Eq.trans ?_ (congrFun (V_main_arg0 m c) (ix2 r k))
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- Row `p` of the second node window's block at point `t`, read off ANY contents `A` of its array, is row
    `5000 t + p` of `A`. (Stated over arbitrary contents: which array the window stages plays no part.) -/
theorem side_block_read (t : Fin cfg0.N) (A : S50000x256.Idx → EReal) (p : Fin 5000) (k : Fin 256) (r : Fin 50000)
    (hr : r.val = t.val * 5000 + p.val) :
    ((cfg0.win 1).blk t).view.read (Elt Ideal) A (ix2 p k) = A (ix2 r k) := by
  obtain ⟨-, -, e0, e1, -⟩ := index_maps t
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 256 + 1 * k.val = k.val; omega

/-- The same rows of the aggregated neighbours, which at region entry are the reference's aggregation of the launch
    arrays. -/
theorem read_side (c : Dev nD) (t : Fin cfg0.N) (p : Fin 5000) (k : Fin 256) (r : Fin 50000) (hr : r.val = t.val * 5000 + p.val) :
    iblk m c 1 t (ix2 p k)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) (ix2 r k) := by
  refine Eq.trans ?_ (congrFun (entry_side m c) (ix2 r k))
  unfold iblk
  exact side_block_read t (V m c main_v12) p k r hr

/-- The first transposed weight matrix, whole at every point: entry `(k, q)` is the weight `(q, k)`. -/
theorem read_w1T (c : Dev nD) (t : Fin cfg0.N) (k q : Fin 256) :
    iblk m c 2 t (ix2 k q) = (m ((c : Thread nD τ).loc main_arg4)) (ix2 q k) := by
  obtain ⟨-, -, -, -, e0, e1, -⟩ := index_maps t
  refine Eq.trans ?_ (entry_w1T m c k q)
  show V m c main_v13 (((cfg0.win 2).blk t).view.emb (ix2 k q)) = V m c main_v13 (ix2 k q)
  refine congrArg (V m c main_v13) (funext fun a => Fin.ext ?_)
  match a with
  | ⟨0, _⟩ => show win0_2.index t (0 : Fin 2) * 256 + 1 * k.val = k.val; omega
  | ⟨1, _⟩ => show win0_2.index t (1 : Fin 2) * 256 + 1 * q.val = q.val; omega

/-- The first bias row, whole at every point. -/
theorem read_b1 (c : Dev nD) (t : Fin cfg0.N) (q : Fin 256) :
    iblk m c 3 t (ix2 (0 : Fin 1) q) = (m ((c : Thread nD τ).loc main_arg5)) (ix1 q) := by
  obtain ⟨-, -, -, -, -, -, e0, e1, -⟩ := index_maps t
  refine Eq.trans ?_ (entry_b1 m c q)
  show V m c main_v15 (((cfg0.win 3).blk t).view.emb (ix2 (0 : Fin 1) q)) = V m c main_v15 (ix2 (0 : Fin 1) q)
  refine congrArg (V m c main_v15) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-- The second transposed weight matrix. -/
theorem read_w2T (c : Dev nD) (t : Fin cfg0.N) (k q : Fin 256) :
    iblk m c 4 t (ix2 k q) = (m ((c : Thread nD τ).loc main_arg6)) (ix2 q k) := by
  obtain ⟨-, -, -, -, -, -, -, -, e0, e1, -⟩ := index_maps t
  refine Eq.trans ?_ (entry_w2T m c k q)
  show V m c main_v14 (((cfg0.win 4).blk t).view.emb (ix2 k q)) = V m c main_v14 (ix2 k q)
  refine congrArg (V m c main_v14) (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

/-- The second bias row. -/
theorem read_b2 (c : Dev nD) (t : Fin cfg0.N) (q : Fin 256) :
    iblk m c 5 t (ix2 (0 : Fin 1) q) = (m ((c : Thread nD τ).loc main_arg7)) (ix1 q) := by
  obtain ⟨-, -, -, -, -, -, -, -, -, -, e0, e1, -⟩ := index_maps t
  refine Eq.trans ?_ (entry_b2 m c q)
  show V m c main_v16 (((cfg0.win 5).blk t).view.emb (ix2 (0 : Fin 1) q)) = V m c main_v16 (ix2 (0 : Fin 1) q)
  refine congrArg (V m c main_v16) (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

end Cert.KernelIdeal.Bridge

end
-- ==== Proof.KernelFlush.lean ====
/-
  What a grid point writes back.

  An entry of the result depends on one row of the node features and of the aggregated neighbours only (and on the
  weights and biases, which every point is handed whole). So the block of 5000 result rows that point `t` computes
  from its 5000 input rows is block `t` of the whole-array function `BiAgg.result` of the launch arrays.
-/
import proofs.«136684_j62715112456964_1_alg».proof.Proof.Gen.KernelIdeal.Value
import proofs.«136684_j62715112456964_1_alg».proof.Proof.KernelCell
import proofs.«136684_j62715112456964_1_alg».proof.Proof.KernelBlocks

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx BiAgg
open Idealize.ShloMosaic.Pipeline (Dat)

variable (m : (ℓ : Loc nD τ sig) → Buf (Elt Ideal) ℓ) (ρ : Dev nD → PrngReg)

/-- The kernel's result array as one function of the launch arrays. -/
def arr (c : Dev nD) : S50000x256.Idx → EReal :=
  result (m ((c : Thread nD τ).loc main_arg0))
    (Cert.ReferenceIdeal.Read.val_main_v12 (F := Ideal) (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg6)) (m ((c : Thread nD τ).loc main_arg5)) (m ((c : Thread nD τ).loc main_arg7))

/-- Entry `(r, q)` of the whole-array function is `cell` of row `r`. -/
theorem arr_apply (c : Dev nD) (r : Fin 50000) (q : Fin 256) :
    arr m c (ix2 r q)
      = cell (fun k => (m ((c : Thread nD τ).loc main_arg0)) (ix2 r k)) (fun k => (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (ix2 r k))
          (fun q k => (m ((c : Thread nD τ).loc main_arg4)) (ix2 q k)) (fun q k => (m ((c : Thread nD τ).loc main_arg6)) (ix2 q k))
          (fun q => (m ((c : Thread nD τ).loc main_arg5)) (ix1 q)) (fun q => (m ((c : Thread nD τ).loc main_arg7)) (ix1 q)) q := by
  unfold arr result
  rfl

/-! ## What point `t` writes back -/

/-- The result window's blocks are whole: what is written back of contents `X` of the staging buffer is `X`. -/
theorem out_cut_apply (t : Fin cfg0.N) (X : S5000x256.Idx → EReal) (p : Fin 5000) (q : Fin 256) :
    (cfg0.win 6).cut (grid0.coords t) X (ix2 p q) = X (ix2 p q) := rfl

/-- Row `p` of the result window's block at point `t`, read off ANY contents `A` of the result array, is row
    `5000 t + p` of `A`. -/
theorem out_block_read (t : Fin cfg0.N) (A : S50000x256.Idx → EReal) (p : Fin 5000) (q : Fin 256) (r : Fin 50000)
    (hr : r.val = t.val * 5000 + p.val) :
    ((cfg0.win 6).blk t).view.read (Elt Ideal) A (ix2 p q) = A (ix2 r q) := by
  obtain ⟨-, -, -, -, -, -, -, -, -, -, -, -, e0, e1⟩ := index_maps t
  show A (((cfg0.win 6).blk t).view.emb (ix2 p q)) = A (ix2 r q)
  refine congrArg A (funext fun a => Fin.ext ?_)
  match a with
  | ⟨0, _⟩ => show win0_6.index t (0 : Fin 2) * 5000 + 1 * p.val = r.val; omega
  | ⟨1, _⟩ => show win0_6.index t (1 : Fin 2) * 256 + 1 * q.val = q.val; omega

/-- POINT `t` WRITES BACK block `t` of the whole-array function. -/
theorem flushed_eq (c : Dev nD) (t : Fin cfg0.N) :
    (dats m 0 c).flushed 6 t = ((cfg0.win 6).blk t).view.read (Elt Ideal) (arr m c) := by
  rw [Cert.KernelIdeal.Value.flushed6]
  unfold out0_6
  rw [View.canon_unit_zero zero_offsets]
  simp only [View.ld_unit_zero (S := S5000x256) zero_offsets, View.ld_unit_zero (S := S256x256) zero_offsets,
    View.ld_unit_zero (S := S1x256) zero_offsets]
  funext j
  obtain ⟨p, q, rfl⟩ : ∃ (p : Fin 5000) (q : Fin 256), j = ix2 p q :=
    ⟨⟨(j 0).val, (j 0).isLt⟩, ⟨(j 1).val, (j 1).isLt⟩, by funext a; match a with | ⟨0, _⟩ => rfl | ⟨1, _⟩ => rfl⟩
  have ht : t.val < 10 := by have h1 := t.isLt; have h2 : cfg0.N = 10 := N_0; omega
  have hr : t.val * 5000 + p.val < 50000 := by have := p.isLt; omega
  refine (out_cut_apply t (k0_pay1 (F := Ideal) (iblk m c 0 t) (iblk m c 1 t) (iblk m c 2 t) (iblk m c 4 t) (iblk m c 3 t) (iblk m c 5 t)) p q).trans ?_
  refine Eq.trans ?_ (out_block_read t (arr m c) p q ⟨t.val * 5000 + p.val, hr⟩ rfl).symm
  refine (payload_apply (iblk m c 0 t) (iblk m c 1 t) (iblk m c 2 t) (iblk m c 4 t) (iblk m c 3 t) (iblk m c 5 t) p q).trans ?_
  refine Eq.trans ?_ (arr_apply m c ⟨t.val * 5000 + p.val, hr⟩ q).symm
  exact cell_congr (fun k => read_nodes m c t p k ⟨t.val * 5000 + p.val, hr⟩ rfl) (fun k => read_side m c t p k ⟨t.val * 5000 + p.val, hr⟩ rfl)
    (fun q k => read_w1T m c t k q) (fun q k => read_w2T m c t k q) (fun q => read_b1 m c t q) (fun q => read_b2 m c t q) q

end Cert.KernelIdeal.Bridge

end
-- ==== Proof.KernelArray.lean ====
/-
  From the kernel's blocks to its result array.

  Point `t` writes back rows `5000 t … 5000 t + 4999` of the result, and what it writes is those rows of the
  whole-array function `BiAgg.result`. Row `r` lies in the block of point `r / 5000`, so the ten blocks cover the
  50000 rows, and after the run the result array is that function.
-/
import proofs.«136684_j62715112456964_1_alg».proof.Proof.Gen.KernelIdeal.Value
import proofs.«136684_j62715112456964_1_alg».proof.Proof.KernelFlush

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx BiAgg
open Idealize.ShloMosaic.Pipeline (Dat)

variable (m : (ℓ : Loc nD τ sig) → Buf (Elt Ideal) ℓ) (ρ : Dev nD → PrngReg)

/-! ## The blocks cover the array -/

/-- An index of the result array is in point `t`'s block iff each coordinate is in the block's range on its axis. -/
theorem mem_block (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v17).slice (win0_6.rect t)).set ↔ _
  rw [View.set_slice_whole, Rect.mem_set_unit]
  exact Iff.rfl

/-- Every index is in the block of the point its row falls in. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 10 := N_0
  have hlt : (i 0).val / 5000 < cfg0.N := by omega
  obtain ⟨-, -, -, -, -, -, -, -, -, -, -, -, e0, e1⟩ := index_maps ⟨(i 0).val / 5000, hlt⟩
  refine ⟨⟨(i 0).val / 5000, hlt⟩, flush0_6 _, ?_⟩
  rw [mem_block]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    have e0' : win0_6.index ⟨(i 0).val / 5000, hlt⟩ (0 : Fin 2) = (i 0).val / 5000 := e0
    omega
  | ⟨1, _⟩ =>
    show win0_6.index ⟨(i 0).val / 5000, hlt⟩ (1 : Fin 2) * 256 ≤ (i 1).val ∧ (i 1).val < win0_6.index ⟨(i 0).val / 5000, hlt⟩ (1 : Fin 2) * 256 + 256
    omega

/-! ## The result array, and the run -/

/-- After the run the result array is the whole-array function of the launch arrays. -/
theorem final (c : Dev nD) : (dats m 0 c).arrAt 6 cfg0.N = arr m c :=
  (dats m 0 c).arrAt_eq_of_cover 6 (arr m c) (fun t _ => flushed_eq m c t) cover

/-- The idealized kernel's run: every weakly fair execution ends with the result array at that function and the
    arguments as launched. -/
theorem run : θ_run defs (onTc (τ := τ) (main (F := Ideal))) ⟨m, fun _ => 0, ρ⟩ fun r => ∀ c : Dev nD,
      r.2.mem ((c : Thread nD τ).loc main_v17) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Bridge

end
-- ==== Proof.RefCell.lean ====
/-
  What the reference computes, one entry at a time.

  The reference forms the aggregated neighbours `S` from the node features and the edge list, then over the WHOLE
  50000-row arrays: (X + S) times the transposed first weight matrix plus the first bias, rectified; (X * S) times the
  transposed second weight matrix plus the second bias, rectified; and adds the second to the first. Each host matrix
  product read at `(p, q)` is the sum over `k` of the left operand at `(p, k)` times the transposed weight at `(k, q)`,
  which is the weight itself at `(q, k)`; a bias is laid along the feature axis and repeated over the rows. So entry
  `(p, q)` is `cell` of row `p` of `X` and of `S`: the function `BiAgg.result`. The aggregation is carried as one
  unopened function of the four arrays it reads.
-/
import proofs.«136684_j62715112456964_1_alg».proof.Proof.Gen.ReferenceIdeal.Read
import proofs.«136684_j62715112456964_1_alg».proof.Proof.Cell

noncomputable section

namespace Cert.ReferenceIdeal.Bridge

open Cert.ReferenceIdeal Cert.ReferenceIdeal.Read Idealize.ShloMosaic Idealize.ShloMosaic.ValueIdx BiAgg

/-- A transposed weight matrix at `(k, q)` is the weight at `(q, k)`: first matrix. -/
theorem w1T_apply (x4 : (⟨S256x256, .f32⟩ : BufTy).Contents (Elt Ideal)) (k q : Fin 256) :
    val_main_v14 (F := Ideal) x4 (ix2 k q) = x4 (ix2 q k) := by
  rw [val_main_v14_apply]
  exact congrArg x4 (funext fun a => Fin.ext (by match a with | ⟨0, _⟩ => rfl | ⟨1, _⟩ => rfl))

/-- The same for the second matrix. -/
theorem w2T_apply (x6 : (⟨S256x256, .f32⟩ : BufTy).Contents (Elt Ideal)) (k q : Fin 256) :
    val_main_v25 (F := Ideal) x6 (ix2 k q) = x6 (ix2 q k) := by
  rw [val_main_v25_apply]
  exact congrArg x6 (funext fun a => Fin.ext (by match a with | ⟨0, _⟩ => rfl | ⟨1, _⟩ => rfl))

/-- The first bias laid along the features and repeated over the rows, at `(p, q)`, is its entry `q`. -/
theorem b1_apply (x5 : (⟨S256, .f32⟩ : BufTy).Contents (Elt Ideal)) (p : Fin 50000) (q : Fin 256) :
    val_main_v17 (F := Ideal) x5 (ix2 p q) = x5 (ix1 q) := by
  rw [val_main_v17_apply, val_main_v16_apply]
  exact congrArg x5 (funext fun a => Fin.ext (by match a with | ⟨0, _⟩ => rfl))

/-- The same for the second bias. -/
theorem b2_apply (x7 : (⟨S256, .f32⟩ : BufTy).Contents (Elt Ideal)) (p : Fin 50000) (q : Fin 256) :
    val_main_v28 (F := Ideal) x7 (ix2 p q) = x7 (ix1 q) := by
  rw [val_main_v28_apply, val_main_v27_apply]
  exact congrArg x7 (funext fun a => Fin.ext (by match a with | ⟨0, _⟩ => rfl))

/-- The sum branch's product at `(p, q)`: the sum over `k` of (X + S) at `(p, k)` times the weight at `(q, k)`. -/
theorem sum_product_apply (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal)) (p : Fin 50000) (q : Fin 256) :
    val_main_v15 (F := Ideal) x0 x1 x2 x3 x4 (ix2 p q)
      = ∑ k : Fin 256, (x0 (ix2 p k) + val_main_v12 (F := Ideal) x0 x1 x2 x3 (ix2 p k)) * x4 (ix2 q k) := by
  rw [val_main_v15_apply]
  refine Finset.sum_congr rfl fun k _ => ?_
  have el : lidx_main_v15 (ix2 p q) k = ix2 p k := funext fun a => Fin.ext (by match a with | ⟨0, _⟩ => rfl | ⟨1, _⟩ => rfl)
  have er : ridx_main_v15 (ix2 p q) k = ix2 k q := funext fun a => Fin.ext (by match a with | ⟨0, _⟩ => rfl | ⟨1, _⟩ => rfl)
  rw [el, er, w1T_apply]
  rfl

/-- The product branch's product at `(p, q)`: the same with (X * S) and the second weight matrix. -/
theorem bi_product_apply (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x6 : (⟨S256x256, .f32⟩ : BufTy).Contents (Elt Ideal)) (p : Fin 50000) (q : Fin 256) :
    val_main_v26 (F := Ideal) x0 x1 x2 x3 x6 (ix2 p q)
      = ∑ k : Fin 256, (x0 (ix2 p k) * val_main_v12 (F := Ideal) x0 x1 x2 x3 (ix2 p k)) * x6 (ix2 q k) := by
  rw [val_main_v26_apply]
  refine Finset.sum_congr rfl fun k _ => ?_
  have el : lidx_main_v26 (ix2 p q) k = ix2 p k := funext fun a => Fin.ext (by match a with | ⟨0, _⟩ => rfl | ⟨1, _⟩ => rfl)
  have er : ridx_main_v26 (ix2 p q) k = ix2 k q := funext fun a => Fin.ext (by match a with | ⟨0, _⟩ => rfl | ⟨1, _⟩ => rfl)
  rw [el, er, w2T_apply]
  rfl

/-- The reference's last stage read at an index: the two rectified pre-activations, added. Every operation after
    the two products and the two biases acts entry by entry, and the zero and the small constant are splats. -/
theorem rectified_apply (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) (i : S50000x256.Idx) :
    val_main_v35 (F := Ideal) x0 x1 x2 x3 x4 x5 x6 x7 i
      = leaky (val_main_v26 (F := Ideal) x0 x1 x2 x3 x6 i + val_main_v28 (F := Ideal) x7 i)
        + leaky (val_main_v15 (F := Ideal) x0 x1 x2 x3 x4 i + val_main_v17 (F := Ideal) x5 i) := by
  rw [val_main_v35_apply, val_main_v34_apply, val_main_v23_apply, val_main_v31_apply, val_main_v33_apply, val_main_v20_apply,
    val_main_v22_apply, val_main_v29_apply, val_main_v18_apply, val_main_v30_apply, val_main_v32_apply, val_main_v19_apply,
    val_main_v21_apply, val_main_cst_1_apply, val_main_cst_2_apply, val_main_cst_3_apply, val_main_cst_4_apply]
  rfl

/-- THE REFERENCE'S RESULT is `BiAgg.result` of the node features, the aggregated neighbours, the weights and the
    biases. -/
theorem result_eq (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v35 (F := Ideal) x0 x1 x2 x3 x4 x5 x6 x7 = result x0 (val_main_v12 (F := Ideal) x0 x1 x2 x3) x4 x6 x5 x7 := by
  funext i
  obtain ⟨p, q, rfl⟩ : ∃ (p : Fin 50000) (q : Fin 256), i = ix2 p q := ⟨i 0, i 1, eq_ix2 i⟩
  rw [rectified_apply, sum_product_apply, bi_product_apply, b1_apply, b2_apply]
  rfl

end Cert.ReferenceIdeal.Bridge

end
-- ==== Proof.lean ====
/-
  A graph layer's "bi-interaction" aggregator: kernel against reference, over the extended reals.

  From node features `X` (50000 × 256), an edge list (row, column, weight; 800000 edges), two 256 × 256 weight
  matrices and two biases, both programs first form the aggregated neighbours `S`: row `r` of `S` is the sum, over the
  edges pointing to `r`, of the edge weight times the node row the edge comes from. They form it by the same
  operations in the same order, so `S` is carried as one unopened function of the four arrays it reads. Then

      out = leaky ((X * S) W2ᵀ + b2) + leaky ((X + S) W1ᵀ + b1),

  `leaky y` being `y` where `y ≥ 0` and a fixed small constant times `y` elsewhere. The reference computes this over
  the whole arrays. The kernel is handed 5000 node rows at a time, with the weight matrices transposed beforehand and
  the biases as one-row matrices, narrows the matrix products' operands to sixteen bits, and accumulates each product
  into zero. Over the extended reals narrowing is the identity and a product into zero is the plain sum over the
  contracted axis, so on both sides entry `(p, q)` is

      leaky (∑ k, (X p k * S p k) * W2 q k + b2 q) + leaky (∑ k, (X p k + S p k) * W1 q k + b1 q)

  (`BiAgg.cell`, Proof/Cell.lean) with the summands in the same order: no law of arithmetic beyond reading the two
  sides is used, and the inputs' finiteness is never needed. An entry depends on one row of `X` and `S` only, so the
  kernel's ten row blocks are the ten row blocks of the whole-array function (Proof/KernelArray.lean); the reference is
  that function by reading its stages at an index (Proof/RefCell.lean). The three programs run without fault and leave
  their arguments unchanged: the two kernels by the frames generated for them, the reference by its run read back.
  The idealized kernel is the kernel's own text read over the extended reals: nothing was rewritten, and that
  conjunct asks nothing.
-/
import proofs.«136684_j62715112456964_1_alg».proof.Defs
import proofs.«136684_j62715112456964_1_alg».proof.Proof.Gen.Kernel
import proofs.«136684_j62715112456964_1_alg».proof.Proof.Gen.Kernel.Skeleton
import proofs.«136684_j62715112456964_1_alg».proof.Proof.Gen.Kernel.Launch
import proofs.«136684_j62715112456964_1_alg».proof.Proof.Gen.Kernel.Points
import proofs.«136684_j62715112456964_1_alg».proof.Proof.Gen.Kernel.Frame
import proofs.«136684_j62715112456964_1_alg».proof.Proof.Gen.KernelIdeal
import proofs.«136684_j62715112456964_1_alg».proof.Proof.Gen.KernelIdeal.Skeleton
import proofs.«136684_j62715112456964_1_alg».proof.Proof.Gen.KernelIdeal.Launch
import proofs.«136684_j62715112456964_1_alg».proof.Proof.Gen.KernelIdeal.Points
import proofs.«136684_j62715112456964_1_alg».proof.Proof.Gen.KernelIdeal.Frame
import proofs.«136684_j62715112456964_1_alg».proof.Proof.Gen.ReferenceIdeal
import proofs.«136684_j62715112456964_1_alg».proof.Proof.Gen.Pre_finite_inputs
import proofs.«136684_j62715112456964_1_alg».proof.Proof.Gen.KernelIdeal.Value
import proofs.«136684_j62715112456964_1_alg».proof.Proof.Gen.ReferenceIdeal.Run
import proofs.«136684_j62715112456964_1_alg».proof.Proof.Gen.ReferenceIdeal.Read
import proofs.«136684_j62715112456964_1_alg».proof.Proof.KernelArray
import proofs.«136684_j62715112456964_1_alg».proof.Proof.RefCell
import Idealize.ShloMosaic.Adequacy
import Idealize.ShloMosaic.Init

noncomputable section

namespace Cert.Proof

open Idealize.ShloMosaic Idealize.SL.Sem Cert.Kernel

/-- The kernel as printed runs without fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run read back, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result array at `BiAgg.result` of
    the node features, the aggregated neighbours, the weights and the biases. -/
theorem algebraic : Cert.algebraic_KernelIdeal_ReferenceIdeal := by
  intro m ρ m' ρ' _ hagree
  refine ⟨fun c => Cert.KernelIdeal.Bridge.arr m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Bridge.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
